-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel

variable [Facts]

def fn_part1 {F : FTy → Type} [FloatOps F] (main_v13 : IVec S_ 1) (main_v16 : IVec S16777216 1) : IVec S_ 1 :=
  let main_c_5 : IVec S_ 1 := constantI S_ 1 1#1
  let main_v17 : IVec S_ 1 := (fun x v => Host.reduce IntOp.andi x v reducesTo_S16777216_S_d0 h_S_) main_v16 main_c_5
  let main_v18 : IVec S_ 1 := andi main_v13 main_v17
  main_v18

def fn {F : FTy → Type} [FloatOps F] (main_arg0 : FVec F S16777216 .f32) (main_arg1 : FVec F S16777216 .f32) (main_arg2 : IVec S16777216 32) (main_arg3 : FVec F S16777216 .f32) (main_arg4 : FVec F S16777216 .f32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  let main_v4 : FVec F S16777216 .f32 := Host.absf main_arg1
  let main_cst_0 : FVec F S_ .f32 := constant S_ .f32 0x7F800000#32
  let main_v5 : FVec F S16777216 .f32 := broadcastInDim S16777216 ![] bcast_S_S16777216 main_cst_0
  let main_v6 : IVec S16777216 1 := cmpf .olt main_v4 main_v5
  let main_c_1 : IVec S_ 1 := constantI S_ 1 1#1
  let main_v7 : IVec S_ 1 := (fun x v => Host.reduce IntOp.andi x v reducesTo_S16777216_S_d0 h_S_) main_v6 main_c_1
  let main_v8 : IVec S_ 1 := andi main_v3 main_v7
  let main_v9 : FVec F S16777216 .f32 := Host.absf main_arg3
  let main_cst_2 : FVec F S_ .f32 := constant S_ .f32 0x7F800000#32
  let main_v10 : FVec F S16777216 .f32 := broadcastInDim S16777216 ![] bcast_S_S16777216 main_cst_2
  let main_v11 : IVec S16777216 1 := cmpf .olt main_v9 main_v10
  let main_c_3 : IVec S_ 1 := constantI S_ 1 1#1
  let main_v12 : IVec S_ 1 := (fun x v => Host.reduce IntOp.andi x v reducesTo_S16777216_S_d0 h_S_) main_v11 main_c_3
  let main_v13 : IVec S_ 1 := andi main_v8 main_v12
  let main_v14 : FVec F S16777216 .f32 := Host.absf main_arg4
  let main_cst_4 : FVec F S_ .f32 := constant S_ .f32 0x7F800000#32
  let main_v15 : FVec F S16777216 .f32 := broadcastInDim S16777216 ![] bcast_S_S16777216 main_cst_4
  let main_v16 : IVec S16777216 1 := cmpf .olt main_v14 main_v15
  fn_part1 (F := F) main_v13 main_v16
-- ==== Kernel.lean ====
abbrev S16777216 : Shape := ⟨1, ![16777216]⟩
abbrev S131072x128 : Shape := ⟨2, ![131072, 128]⟩
abbrev S1x1 : Shape := ⟨2, ![1, 1]⟩
abbrev S2048x128 : Shape := ⟨2, ![2048, 128]⟩
abbrev S2048 : Shape := ⟨1, ![2048]⟩
abbrev S2048x1 : Shape := ⟨2, ![2048, 1]⟩
abbrev S1 : Shape := ⟨1, ![1]⟩
abbrev S_ : Shape := ⟨0, ![]⟩

abbrev nBuf : Space → Nat
  | .hbm => 11
  | .vmem => 9
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S16777216, .i32⟩
  | .hbm, ⟨3, _⟩ => ⟨S16777216, .f32⟩
  | .hbm, ⟨4, _⟩ => ⟨S16777216, .f32⟩
  | .hbm, ⟨5, _⟩ => ⟨S131072x128, .f32⟩
  | .hbm, ⟨6, _⟩ => ⟨S131072x128, .i32⟩
  | .hbm, ⟨7, _⟩ => ⟨S131072x128, .f32⟩
  | .hbm, ⟨8, _⟩ => ⟨S131072x128, .f32⟩
  | .hbm, ⟨9, _⟩ => ⟨S1x1, .f32⟩
  | .hbm, ⟨10, _⟩ => ⟨S_, .f32⟩
  | .local _ .vmem, ⟨0, _⟩ => ⟨S2048x128, .f32⟩
  | .local _ .vmem, ⟨1, _⟩ => ⟨S2048x128, .f32⟩
  | .local _ .vmem, ⟨2, _⟩ => ⟨S2048x128, .i32⟩
  | .local _ .vmem, ⟨3, _⟩ => ⟨S2048x128, .i32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S1x1, .f32⟩
  | _, _ => ⟨S16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S16777216_S131072x128 : S16777216.ShapeCasts S131072x128
  inb_S1x1_S1x1_0_0 : ∀ a, (![0, 0] : Fin 2 → Nat) a + S1x1.size a ≤ S1x1.size a
  h_S1x1 : 0 < S1x1.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  reduces_S2048x128_S2048 : S2048x128.Reduces [1] S2048
  shapeCasts_S2048_S2048x1 : S2048.ShapeCasts S2048x1
  reduces_S2048x1_S1 : S2048x1.Reduces [0] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S131072x128.size a
  hwx0_0 : ∀ i : grid0.Coords, EltTy.bits .f32 = 32 ∨ (Rect.block (s := S131072x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S131072x128.size a
  hwx0_1 : ∀ i : grid0.Coords, EltTy.bits .i32 = 32 ∨ (Rect.block (s := S131072x128) S2048x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S131072x128.size a
  hwx0_2 : ∀ i : grid0.Coords, EltTy.bits .f32 = 32 ∨ (Rect.block (s := S131072x128) S2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S131072x128.size a
  hwx0_3 : ∀ i : grid0.Coords, EltTy.bits .f32 = 32 ∨ (Rect.block (s := S131072x128) S2048x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

abbrev win0_0 : Pipeline.Window sig grid0 :=
  Pipeline.Window.ofSpec (Memref.whole main_v0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16777216 : Shape := ⟨1, ![16777216]⟩
abbrev S_ : Shape := ⟨0, ![]⟩

abbrev nBuf : Space → Nat
  | .hbm => 88
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S16777216, .i32⟩
  | .hbm, ⟨3, _⟩ => ⟨S16777216, .f32⟩
  | .hbm, ⟨4, _⟩ => ⟨S16777216, .f32⟩
  | .hbm, ⟨5, _⟩ => ⟨S16777216, .f32⟩
  | .hbm, ⟨6, _⟩ => ⟨S_, .i32⟩
  | .hbm, ⟨7, _⟩ => ⟨S16777216, .i32⟩
  | .hbm, ⟨8, _⟩ => ⟨S16777216, .i1⟩
  | .hbm, ⟨9, _⟩ => ⟨S_, .f32⟩
  | .hbm, ⟨10, _⟩ => ⟨S16777216, .f32⟩
  | .hbm, ⟨11, _⟩ => ⟨S16777216, .f32⟩
  | .hbm, ⟨12, _⟩ => ⟨S16777216, .f32⟩
  | .hbm, ⟨13, _⟩ => ⟨S_, .f32⟩
  | .hbm, ⟨14, _⟩ => ⟨S16777216, .f32⟩
  | .hbm, ⟨15, _⟩ => ⟨S16777216, .i1⟩
  | .hbm, ⟨16, _⟩ => ⟨S_, .f32⟩
  | .hbm, ⟨17, _⟩ => ⟨S16777216, .f32⟩
  | .hbm, ⟨18, _⟩ => ⟨S16777216, .i1⟩
  | .hbm, ⟨19, _⟩ => ⟨S16777216, .i1⟩
  | .hbm, ⟨20, _⟩ => ⟨S_, .f32⟩
  | .hbm, ⟨21, _⟩ => ⟨S16777216, .f32⟩
  | .hbm, ⟨22, _⟩ => ⟨S16777216, .f32⟩
  | .hbm, ⟨23, _⟩ => ⟨S_, .f32⟩
  | .hbm, ⟨24, _⟩ => ⟨S16777216, .f32⟩
  | .hbm, ⟨25, _⟩ => ⟨S16777216, .f32⟩
  | .hbm, ⟨26, _⟩ => ⟨S_, .f32⟩
  | .hbm, ⟨27, _⟩ => ⟨S16777216, .f32⟩
  | .hbm, ⟨28, _⟩ => ⟨S16777216, .f32⟩
  | .hbm, ⟨29, _⟩ => ⟨S_, .f32⟩
  | .hbm, ⟨30, _⟩ => ⟨S16777216, .f32⟩
  | .hbm, ⟨31, _⟩ => ⟨S16777216, .f32⟩
  | .hbm, ⟨32, _⟩ => ⟨S_, .f32⟩
  | .hbm, ⟨33, _⟩ => ⟨S16777216, .f32⟩
  | .hbm, ⟨34, _⟩ => ⟨S16777216, .f32⟩
  | .hbm, ⟨35, _⟩ => ⟨S16777216, .f32⟩
  | .hbm, ⟨36, _⟩ => ⟨S_, .f32⟩
  | .hbm, ⟨37, _⟩ => ⟨S_, .f32⟩
  | .hbm, ⟨38, _⟩ => ⟨S16777216, .f32⟩
  | .hbm, ⟨39, _⟩ => ⟨S16777216, .f32⟩
  | .hbm, ⟨40, _⟩ => ⟨S16777216, .i1⟩
  | .hbm, ⟨41, _⟩ => ⟨S_, .f32⟩
  | .hbm, ⟨42, _⟩ => ⟨S16777216, .f32⟩
  | .hbm, ⟨43, _⟩ => ⟨S16777216, .f32⟩
  | .hbm, ⟨44, _⟩ => ⟨S_, .f32⟩
  | .hbm, ⟨45, _⟩ => ⟨S16777216, .f32⟩
  | .hbm, ⟨46, _⟩ => ⟨S16777216, .f32⟩
  | .hbm, ⟨47, _⟩ => ⟨S_, .f32⟩
  | .hbm, ⟨48, _⟩ => ⟨S_, .f32⟩
  | .hbm, ⟨49, _⟩ => ⟨S16777216, .f32⟩
  | .hbm, ⟨50, _⟩ => ⟨S16777216, .f32⟩
  | .hbm, ⟨51, _⟩ => ⟨S_, .f32⟩
  | .hbm, ⟨52, _⟩ => ⟨S_, .f32⟩
  | .hbm, ⟨53, _⟩ => ⟨S16777216, .f32⟩
  | .hbm, ⟨54, _⟩ => ⟨S16777216, .f32⟩
  | .hbm, ⟨55, _⟩ => ⟨S_, .f32⟩
  | .hbm, ⟨56, _⟩ => ⟨S_, .f32⟩
  | .hbm, ⟨57, _⟩ => ⟨S16777216, .f32⟩
  | .hbm, ⟨58, _⟩ => ⟨S16777216, .f32⟩
  | .hbm, ⟨59, _⟩ => ⟨S16777216, .f32⟩
  | .hbm, ⟨60, _⟩ => ⟨S_, .f32⟩
  | .hbm, ⟨61, _⟩ => ⟨S_, .f32⟩
  | .hbm, ⟨62, _⟩ => ⟨S16777216, .f32⟩
  | .hbm, ⟨63, _⟩ => ⟨S16777216, .f32⟩
  | .hbm, ⟨64, _⟩ => ⟨S16777216, .f32⟩
  | .hbm, ⟨65, _⟩ => ⟨S16777216, .f32⟩
  | .hbm, ⟨66, _⟩ => ⟨S_, .f32⟩
  | .hbm, ⟨67, _⟩ => ⟨S16777216, .f32⟩
  | .hbm, ⟨68, _⟩ => ⟨S16777216, .f32⟩
  | .hbm, ⟨69, _⟩ => ⟨S16777216, .f32⟩
  | .hbm, ⟨70, _⟩ => ⟨S16777216, .f32⟩
  | .hbm, ⟨71, _⟩ => ⟨S16777216, .f32⟩
  | .hbm, ⟨72, _⟩ => ⟨S16777216, .f32⟩
  | .hbm, ⟨73, _⟩ => ⟨S_, .f32⟩
  | .hbm, ⟨74, _⟩ => ⟨S16777216, .f32⟩
  | .hbm, ⟨75, _⟩ => ⟨S16777216, .f32⟩
  | .hbm, ⟨76, _⟩ => ⟨S16777216, .f32⟩
  | .hbm, ⟨77, _⟩ => ⟨S_, .f32⟩
  | .hbm, ⟨78, _⟩ => ⟨S16777216, .f32⟩
  | .hbm, ⟨79, _⟩ => ⟨S16777216, .f32⟩
  | .hbm, ⟨80, _⟩ => ⟨S16777216, .f32⟩
  | .hbm, ⟨81, _⟩ => ⟨S16777216, .f32⟩
  | .hbm, ⟨82, _⟩ => ⟨S16777216, .f32⟩
  | .hbm, ⟨83, _⟩ => ⟨S16777216, .f32⟩
  | .hbm, ⟨84, _⟩ => ⟨S16777216, .f32⟩
  | .hbm, ⟨85, _⟩ => ⟨S16777216, .f32⟩
  | .hbm, ⟨86, _⟩ => ⟨S_, .f32⟩
  | .hbm, ⟨87, _⟩ => ⟨S_, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_7 : Ref sig .tc := ⟨.hbm, 36, rfl⟩
abbrev main_call1_v0 : Ref sig .tc := ⟨.hbm, 37, rfl⟩
abbrev main_call1_v1 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_cst_10 : Ref sig .tc := ⟨.hbm, 47, rfl⟩
abbrev main_call2_v0 : Ref sig .tc := ⟨.hbm, 48, rfl⟩
abbrev main_call2_v1 : Ref sig .tc := ⟨.hbm, 49, rfl⟩
abbrev main_v28 : Ref sig .tc := ⟨.hbm, 50, rfl⟩
abbrev main_cst_11 : Ref sig .tc := ⟨.hbm, 51, rfl⟩
abbrev main_call3_v0 : Ref sig .tc := ⟨.hbm, 52, rfl⟩
abbrev main_call3_v1 : Ref sig .tc := ⟨.hbm, 53, rfl⟩
abbrev main_v29 : Ref sig .tc := ⟨.hbm, 54, rfl⟩
abbrev main_cst_12 : Ref sig .tc := ⟨.hbm, 55, rfl⟩
abbrev main_cst_13 : Ref sig .tc := ⟨.hbm, 56, rfl⟩
abbrev main_call4_v0 : Ref sig .tc := ⟨.hbm, 57, rfl⟩
abbrev main_call4_v1 : Ref sig .tc := ⟨.hbm, 58, rfl⟩
abbrev main_v30 : Ref sig .tc := ⟨.hbm, 59, rfl⟩
abbrev main_cst_14 : Ref sig .tc := ⟨.hbm, 60, rfl⟩
abbrev main_cst_15 : Ref sig .tc := ⟨.hbm, 61, rfl⟩
abbrev main_call5_v0 : Ref sig .tc := ⟨.hbm, 62, rfl⟩
abbrev main_call5_v1 : Ref sig .tc := ⟨.hbm, 63, rfl⟩
abbrev main_v31 : Ref sig .tc := ⟨.hbm, 64, rfl⟩
abbrev main_v32 : Ref sig .tc := ⟨.hbm, 65, rfl⟩
abbrev main_cst_16 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_cst_17 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_cst_18 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_cst_19 : Ref sig .tc := ⟨.hbm, 86, rfl⟩
abbrev main_v50 : Ref sig .tc := ⟨.hbm, 87, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)
  reducesTo_S16777216_S_d0 : S16777216.ReducesTo [0] S_
  h_S_ : 0 < S_.numel

variable [Facts₀]

class Facts : Prop extends Facts₀ where

variable [Facts]
-- ==== Proof.Step.lean ====
/-
  The kernel body's arithmetic at one grid point, as one function: from the point's four input blocks (predictions, flags,
  sepsis times, current times, each 2048 rows of 128 lanes) and the one-entry accumulator block it finds, the accumulator
  block it leaves — the accumulator plus the sum over the block of the per-patient terms. `zeroBlock` is the zero the first
  point stores before it accumulates.
-/
import proofs.«155827_j70531952935356_1_alg».proof.Proof.Gen.KernelIdeal.Skeleton

noncomputable section

open Idealize.ShloMosaic Idealize.SL.Sem

namespace Cert.KernelIdeal.Pieces

open Cert.KernelIdeal Cert.KernelIdeal.Gen

variable {F : FTy → Type} [FloatOps F]

/-- The body's arithmetic at one point: the input blocks' terms summed and added to the accumulator block `acc`. -/
def step (x0 : Vec F S2048x128 .f32) (x1 : Vec F S2048x128 .i32) (x2 x3 : Vec F S2048x128 .f32)
    (acc : Vec F S1x1 .f32) : Vec F S1x1 .f32 :=
  k0_pay1 (k0_pay3 x0) (k0_pay5 x1) (k0_pay6 x1) (k0_pay8 x2 x3) (k0_pay9 x2 x3) (k0_pay10 x1 x2 x3) (k0_pay11 x2 x3) acc

/-- The zero block the first point stores before it accumulates. -/
abbrev zeroBlock : Vec F S1x1 .f32 := k0_pay2 (F := F)

end Cert.KernelIdeal.Pieces

end
-- ==== Proof.Pieces.lean ====
/-
  What one grid point leaves in the accumulator. The kernel body at a point loads the four input blocks, forms the
  per-patient terms, sums them over the lanes and then over the rows, and adds the block's total to the one-entry
  accumulator block; at the first point it first stores zero there and reads that zero back. So a later point leaves
  `step x acc`, the body's arithmetic applied to the point's input blocks `x` and the accumulator `acc` it found, and the
  first point leaves `step x 0`.
-/
import proofs.«155827_j70531952935356_1_alg».proof.Proof.Gen.KernelIdeal.Frame
import proofs.«155827_j70531952935356_1_alg».proof.Proof.Step
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A later point: the accumulator block ends at `step` of the point's input blocks over what it held. -/
theorem out_later (c : Dev nD) (i : grid0.Coords) (a1 : Memref sig .tc .vmem S2048x128 .f32) (h1 : a1.IsWhole)
    (a2 : Memref sig .tc .vmem S2048x128 .i32) (h2 : a2.IsWhole) (a3 : Memref sig .tc .vmem S2048x128 .f32) (h3 : a3.IsWhole)
    (a4 : Memref sig .tc .vmem S2048x128 .f32) (h4 : a4.IsWhole) (a5 : Memref sig .tc .vmem S1x1 .f32) (h5 : a5.IsWhole)
    (hc : ¬cond0_0 i) (x0 : Vec F S2048x128 .f32) (x1 : Vec F S2048x128 .i32) (x2 x3 : Vec F S2048x128 .f32)
    (xo : Vec F S1x1 .f32) :
    out0_B_4 c i a1 h1 a2 h2 a3 h3 a4 h4 a5 h5 hc x0 x1 x2 x3 xo = step x0 x1 x2 x3 xo := by
  unfold out0_B_4
  rw [View.read_writes_eq_canon _ _ _ (cover0_B_4 c i a1 h1 a2 h2 a3 h3 a4 h4 a5 h5 hc x0 x1 x2 x3 xo)]
  unfold kernelRun0_B
  dsimp only
  sl_unfold_words
  rw [View.canon_unit_zero hz]
  unfold step
  simp only [View.readAt_eq_ld, h1.read_unread, h2.read_unread, h3.read_unread, h4.read_unread, h5.read_unread,
    View.ld_unit_zero (S := S2048x128) hz, View.ld_unit_zero (S := S1x1) hz]

/-- The first point: zero is stored, read back, and the block's total added to it. -/
theorem out_first (c : Dev nD) (i : grid0.Coords) (a1 : Memref sig .tc .vmem S2048x128 .f32) (h1 : a1.IsWhole)
    (a2 : Memref sig .tc .vmem S2048x128 .i32) (h2 : a2.IsWhole) (a3 : Memref sig .tc .vmem S2048x128 .f32) (h3 : a3.IsWhole)
    (a4 : Memref sig .tc .vmem S2048x128 .f32) (h4 : a4.IsWhole) (a5 : Memref sig .tc .vmem S1x1 .f32) (h5 : a5.IsWhole)
    (hc : cond0_0 i) (x0 : Vec F S2048x128 .f32) (x1 : Vec F S2048x128 .i32) (x2 x3 : Vec F S2048x128 .f32) :
    out0_A_4 c i a1 h1 a2 h2 a3 h3 a4 h4 a5 h5 hc x0 x1 x2 x3 = step x0 x1 x2 x3 zeroBlock := by
  unfold out0_A_4
  rw [View.read_writes_eq_canon _ _ _ (cover0_A_4 c i a1 h1 a2 h2 a3 h3 a4 h4 a5 h5 hc x0 x1 x2 x3)]
  unfold kernelRun0_A
  dsimp only
  sl_unfold_words
  rw [View.canon_cons_unit_zero (S := S1x1) hz, View.readCov_unit_zero (S := S1x1) _ hz]
  unfold step
  simp only [View.readAt_eq_ld, h1.read_unread, h2.read_unread, h3.read_unread, h4.read_unread,
    View.ld_unit_zero (S := S2048x128) hz, View.ld_unit_zero (S := S1x1) hz]

end Cert.KernelIdeal.Pieces

end
-- ==== Proof.Utility.lean ====
/-
  The per-patient utility term, as a function of one patient's prediction `x`, sepsis flag `fl`, sepsis time `s` and
  current time `c`, over any float values. With `d` the hours past the optimal treatment time, `f` the flag as a float and
  the three piecewise-linear utilities

    uTP = [d ≤ 3 ∧ fl > 0] · (if d ≤ -6 then max (d/6 + 2) (-0.05) else -d/9 + 1/3)
    uFN = [d ≤ 3 ∧ fl > 0] · (if d ≤ -6 then 0 else -2d/9 - 4/3)
    uFP = [d ≤ 3] · (-0.05)

  (the slopes and intercepts are the f32 words both programs carry; they are never evaluated), the term is

    -(x · (uTP · f + uFP · (1 - f)) + (1 - x) · (uFN · f)).

  The two programs differ in three places: the kernel forms `d` as `(c - s) + (-6)` and the reference as `c - (s - (-6))`;
  the reference adds to `uFN · f` the true-negative term `[d ≤ 3]·0 · (1 - f)`, which is zero; the kernel negates by
  `0 - y` and the reference by `-y`. `ref_eq_ker`: on the extended reals the two terms are equal whenever `s` and `c` are
  real numbers (the regrouping of `d` is the one step that needs it: `∞ - ∞` groups differently).
-/
import Idealize.ShloMosaic.PureOps
import Idealize.ShloMosaic.PureOps.Ideal
import Idealize.ShloMosaic.PureOps.Ideal.Laws

noncomputable section

namespace Cert.Utility

open Idealize.ShloMosaic

variable {F : FTy → Type} [FloatOps F]

/-- Hours past the optimal treatment time, as the kernel groups it: `(c - s) + (-6)`. -/
def dKer (s c : F .f32) : F .f32 :=
  FloatOps.addf (FloatOps.subf c s) (FloatOps.ofBits .f32 0xC0C00000#32)

/-- The same, as the reference groups it: `c - (s - (-6))`. -/
def dRef (s c : F .f32) : F .f32 :=
  FloatOps.subf c (FloatOps.subf s (FloatOps.ofBits .f32 0xC0C00000#32))

/-- `d ≤ 3`: not yet too late. -/
def inWin (d : F .f32) : BitVec 1 := FloatOps.cmpf .ole d (FloatOps.ofBits .f32 0x40400000#32)

/-- `d ≤ -6`: before the optimal time. -/
def early (d : F .f32) : BitVec 1 := FloatOps.cmpf .ole d (FloatOps.ofBits .f32 0xC0C00000#32)

/-- The patient is septic: the flag is positive. -/
def septic (fl : BitVec 32) : BitVec 1 := IntOp.cmpi .sgt fl 0#32

/-- The flag as a float. -/
def flagF (fl : BitVec 32) : F .f32 := FloatOps.sitofp .f32 fl

/-- The utility of a true positive. -/
def uTP (fl : BitVec 32) (d : F .f32) : F .f32 :=
  Scalar.select (IntOp.andi (inWin d) (septic fl))
    (Scalar.select (early d)
      (FloatOps.maximumf (FloatOps.addf (FloatOps.mulf (FloatOps.ofBits .f32 0x3E2AAAAB#32) d) (FloatOps.ofBits .f32 0x40000000#32))
        (FloatOps.ofBits .f32 0xBD4CCCCD#32))
      (FloatOps.addf (FloatOps.mulf (FloatOps.ofBits .f32 0xBDE38E39#32) d) (FloatOps.ofBits .f32 0x3EAAAAAB#32)))
    (FloatOps.ofBits .f32 0x00000000#32)

/-- The utility of a false negative. -/
def uFN (fl : BitVec 32) (d : F .f32) : F .f32 :=
  Scalar.select (IntOp.andi (inWin d) (septic fl))
    (Scalar.select (early d) (FloatOps.ofBits .f32 0x00000000#32)
      (FloatOps.addf (FloatOps.mulf (FloatOps.ofBits .f32 0xBE638E39#32) d) (FloatOps.ofBits .f32 0xBFAAAAAB#32)))
    (FloatOps.ofBits .f32 0x00000000#32)

/-- The utility of a false positive. -/
def uFP (d : F .f32) : F .f32 :=
  Scalar.select (inWin d) (FloatOps.ofBits .f32 0xBD4CCCCD#32) (FloatOps.ofBits .f32 0x00000000#32)

/-- The utility of a true negative: zero inside the window and zero outside it. -/
def uTN (d : F .f32) : F .f32 :=
  Scalar.select (inWin d) (FloatOps.ofBits .f32 0x00000000#32) (FloatOps.ofBits .f32 0x00000000#32)

/-- The positive-prediction part both programs share: `x · (uTP · f + uFP · (1 - f))`. -/
def posPart (x : F .f32) (fl : BitVec 32) (d : F .f32) : F .f32 :=
  FloatOps.mulf x (FloatOps.addf (FloatOps.mulf (uTP fl d) (flagF fl))
    (FloatOps.mulf (uFP d) (FloatOps.subf (FloatOps.ofBits .f32 0x3F800000#32) (flagF fl))))

/-- The kernel's term: `0 - (x · (…) + (1 - x) · (uFN · f))` at its own `d`. -/
def ker (x : F .f32) (fl : BitVec 32) (s c : F .f32) : F .f32 :=
  FloatOps.subf (FloatOps.ofBits .f32 0x00000000#32)
    (FloatOps.addf (posPart x fl (dKer s c))
      (FloatOps.mulf (FloatOps.subf (FloatOps.ofBits .f32 0x3F800000#32) x) (FloatOps.mulf (uFN fl (dKer s c)) (flagF fl))))

/-- The reference's term: `-(x · (…) + (1 - x) · (uFN · f + uTN · (1 - f)))` at its own `d`. -/
def ref (x : F .f32) (fl : BitVec 32) (s c : F .f32) : F .f32 :=
  FloatOps.hostNegf
    (FloatOps.addf (posPart x fl (dRef s c))
      (FloatOps.mulf (FloatOps.subf (FloatOps.ofBits .f32 0x3F800000#32) x)
        (FloatOps.addf (FloatOps.mulf (uFN fl (dRef s c)) (flagF fl))
          (FloatOps.mulf (uTN (dRef s c)) (FloatOps.subf (FloatOps.ofBits .f32 0x3F800000#32) (flagF fl))))))

end Cert.Utility

end
-- ==== Proof.StepValue.lean ====
/-
  One grid point's arithmetic, read at the extended reals: the accumulator entry it leaves is the entry it found plus the sum,
  over the 2048 rows and 128 lanes of the point's input blocks, of the kernel's per-patient term of the four entries at that
  row and lane. The body sums the lanes of each row first and the row sums afterwards; both are finite sums on the extended
  reals, so the result is the double sum.
-/
import proofs.«155827_j70531952935356_1_alg».proof.Proof.Step
import proofs.«155827_j70531952935356_1_alg».proof.Proof.Utility
import Idealize.ShloMosaic.Lib.ValueIdx
import Idealize.ShloMosaic.Lib.Pipeline.Value
import Idealize.ShloMosaic.PureOps.Ideal.Laws

noncomputable section

open Idealize.ShloMosaic Idealize.SL.Sem Idealize.ShloMosaic.ValueIdx

namespace Cert.KernelIdeal.Pieces

open Cert.KernelIdeal Cert.KernelIdeal.Gen

/-- Summing a [2048, 128] block's lanes row by row, then the 2048 row sums, leaves in the one entry of the [1, 1] result the
    double sum over rows and lanes. -/
theorem rows_then_lanes (src : FVec Ideal S2048x128 .f32) (h1 : S2048x128.Reduces [1] S2048) (hφ : FKind.Formats .f32)
    (hacc : (0x00000000#32 : BitVec 32) = FKind.add.neutral .f32 hφ) (hc1 : S2048.ShapeCasts S2048x1)
    (h2 : S2048x1.Reduces [0] S1) (hc2 : S1.ShapeCasts S1x1) (j : S1x1.Idx) :
    shapeCast S1x1 (multiReduction .add [0] S1 (shapeCast S2048x1 (multiReduction .add [1] S2048 src 0x00000000#32 h1 hφ hacc) hc1)
      0x00000000#32 h2 hφ hacc) hc2 j = ∑ r : Fin 2048, ∑ l : Fin 128, src (ix2 r l) := by
  have hj0 : (j 0).val = 0 := by have := (j 0).isLt; simp at this; omega
  have hj1 : (j 1).val = 0 := by have := (j 1).isLt; simp at this; omega
  refine (shapeCast_apply _ hc2 j (ix1 (0 : Fin 1)) ?_).trans ?_
  · rw [Shape.rowMajor_val_one, Shape.rowMajor_val_two, hj0, hj1]; rfl
  refine (Ideal.multiReduction_add_single _ 0x00000000#32 h2 hφ hacc (ix1 (0 : Fin 1))).trans ?_
  refine Finset.sum_congr rfl fun r _ => ?_
  refine (shapeCast_apply _ hc1 (h2.lift (ix1 (0 : Fin 1)) r) (ix1 r) ?_).trans ?_
  · rw [Shape.rowMajor_val_one, Shape.rowMajor_val_two]
    show r.val = r.val * 1 + 0
    omega
  refine (Ideal.multiReduction_add_single src 0x00000000#32 h1 hφ hacc (ix1 r)).trans ?_
  refine Finset.sum_congr rfl fun l _ => congrArg src ?_
  funext a
  match a with
  | ⟨0, _⟩ => rfl
  | ⟨1, _⟩ => rfl

/-- The term the body sums, at one row and lane, is the kernel's per-patient term of the four inputs' entries there. -/
theorem term_apply (x0 : Vec Ideal S2048x128 .f32) (x1 : Vec Ideal S2048x128 .i32) (x2 x3 : Vec Ideal S2048x128 .f32)
    (i : S2048x128.Idx) :
    subf (broadcast S2048x128 (FloatOps.ofBits (F := Ideal) .f32 0x00000000#32))
      (addf
        (mulf (k0_pay3 x0)
          (addf (mulf (k0_pay10 x1 x2 x3) (k0_pay5 x1))
            (mulf
              (select (k0_pay8 x2 x3) (broadcast S2048x128 (FloatOps.ofBits (F := Ideal) .f32 0xBD4CCCCD#32))
                (broadcast S2048x128 (FloatOps.ofBits (F := Ideal) .f32 0x00000000#32)))
              (subf (broadcast S2048x128 (FloatOps.ofBits (F := Ideal) .f32 0x3F800000#32)) (k0_pay5 x1)))))
        (mulf (subf (broadcast S2048x128 (FloatOps.ofBits (F := Ideal) .f32 0x3F800000#32)) (k0_pay3 x0))
          (mulf
            (select (andi (k0_pay8 x2 x3) (k0_pay6 x1))
              (select (k0_pay9 x2 x3) (broadcast S2048x128 (FloatOps.ofBits (F := Ideal) .f32 0x00000000#32))
                (addf (k0_pay11 x2 x3) (broadcast S2048x128 (FloatOps.ofBits (F := Ideal) .f32 0xBFAAAAAB#32))))
              (broadcast S2048x128 (FloatOps.ofBits (F := Ideal) .f32 0x00000000#32)))
            (k0_pay5 x1)))) i
      = Cert.Utility.ker (F := Ideal) (x0 i) (x1 i) (x2 i) (x3 i) := by
  simp only [k0_pay3, k0_pay4, k0_pay5, k0_pay6, k0_pay7, k0_pay8, k0_pay9, k0_pay10, k0_pay11, shapeCast_self]
  rfl

/-- One point's arithmetic at the extended reals: the accumulator entry plus the block's double sum of per-patient terms. -/
theorem step_apply (x0 : Vec Ideal S2048x128 .f32) (x1 : Vec Ideal S2048x128 .i32) (x2 x3 : Vec Ideal S2048x128 .f32)
    (acc : Vec Ideal S1x1 .f32) (j : S1x1.Idx) :
    step (F := Ideal) x0 x1 x2 x3 acc j = acc j + ∑ r : Fin 2048, ∑ l : Fin 128,
      Cert.Utility.ker (F := Ideal) (x0 (ix2 r l)) (x1 (ix2 r l)) (x2 (ix2 r l)) (x3 (ix2 r l)) := by
  unfold step k0_pay1
  dsimp only
  refine (addf_apply _ _ j).trans ?_
  refine congrArg₂ (· + ·) (congrFun (shapeCast_self acc _) j) ?_
  refine (rows_then_lanes _ _ _ _ _ _ _ j).trans ?_
  exact Finset.sum_congr rfl fun r _ => Finset.sum_congr rfl fun l _ => term_apply x0 x1 x2 x3 (ix2 r l)

end Cert.KernelIdeal.Pieces

end
-- ==== Proof.Accum.lean ====
/-
  The accumulator over the grid. Point `t` of the 64 adds to the one-entry accumulator block the total of its input blocks'
  per-patient terms, `blockTotal t`; the first point starts from zero. By induction on the point, the accumulator entry after
  point `n` is the sum of the block totals of points `0 … n` — a finite sum on the extended reals, whatever the order in which
  the points were added.
-/
import proofs.«155827_j70531952935356_1_alg».proof.Proof.Pieces
import proofs.«155827_j70531952935356_1_alg».proof.Proof.StepValue

noncomputable section

open Idealize.ShloMosaic Idealize.ShloMosaic.TcCoe Idealize.SL.Sem Idealize.ShloMosaic.ValueIdx

namespace Cert.KernelIdeal.Accum

open Cert.KernelIdeal Cert.KernelIdeal.Gen Cert.KernelIdeal.Pieces

variable (m : (ℓ : Loc nD τ sig) → Buf (Elt Ideal) ℓ)

/-- The four input blocks at point `t`, at their literal types: predictions, flags, sepsis times, current times. -/
abbrev blk0 (c : Dev nD) (t : Fin cfg0.N) : Vec Ideal S2048x128 .f32 := iblk m c 0 t
abbrev blk1 (c : Dev nD) (t : Fin cfg0.N) : Vec Ideal S2048x128 .i32 := iblk m c 1 t
abbrev blk2 (c : Dev nD) (t : Fin cfg0.N) : Vec Ideal S2048x128 .f32 := iblk m c 2 t
abbrev blk3 (c : Dev nD) (t : Fin cfg0.N) : Vec Ideal S2048x128 .f32 := iblk m c 3 t

/-- The total of point `t`'s per-patient terms. -/
def blockTotal (c : Dev nD) (t : Fin cfg0.N) : EReal :=
  ∑ r : Fin 2048, ∑ l : Fin 128,
    Cert.Utility.ker (F := Ideal) (blk0 m c t (ix2 r l)) (blk1 m c t (ix2 r l)) (blk2 m c t (ix2 r l)) (blk3 m c t (ix2 r l))

/-- The same by the point's number, zero past the grid. -/
def totalAt (c : Dev nD) (k : ℕ) : EReal := if h : k < cfg0.N then blockTotal m c ⟨k, h⟩ else 0

theorem totalAt_of_lt (c : Dev nD) (k : ℕ) (h : k < cfg0.N) : totalAt m c k = blockTotal m c ⟨k, h⟩ := dif_pos h

/-- The zero block's entry is zero. -/
theorem zeroBlock_apply (j : S1x1.Idx) : (zeroBlock (F := Ideal)) j = 0 := Ideal.ofBits_zero_f32

/-- After point `n` the accumulator entry is the sum of the block totals of the points up to `n`. -/
theorem outsAt_eq (c : Dev nD) : ∀ (n : ℕ) (h : n < cfg0.N) (j : S1x1.Idx),
    outsAt0 m c n h j = ∑ k ∈ Finset.range (n + 1), totalAt m c k
  | 0, h, j => by
    have e := (outsAt0_A m c ⟨0, h⟩ rfl).trans
      (out_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
        (ms0_3 ⟨0, h⟩) (hs0_3 ⟨0, h⟩) (ms0_4 ⟨0, h⟩) (hs0_4 ⟨0, h⟩) ((hcond0_0 ⟨0, h⟩).mpr rfl)
        (blk0 m c ⟨0, h⟩) (blk1 m c ⟨0, h⟩) (blk2 m c ⟨0, h⟩) (blk3 m c ⟨0, h⟩))
    refine (congrFun e j).trans ?_
    refine (step_apply (blk0 m c ⟨0, h⟩) (blk1 m c ⟨0, h⟩) (blk2 m c ⟨0, h⟩) (blk3 m c ⟨0, h⟩) zeroBlock j).trans ?_
    rw [zeroBlock_apply, zero_add, Finset.sum_range_one, totalAt_of_lt m c 0 h]
    rfl
  | n + 1, h, j => by
    have hN : cfg0.N = 64 := N_0
    have hB : ¬(⟨n + 1, h⟩ : Fin cfg0.N).val % 64 = 0 := by dsimp only; omega
    have e := (outsAt0_B m c ⟨n + 1, h⟩ hB).trans
      (out_later c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩)
        (fun hh => hB ((hcond0_0 ⟨n + 1, h⟩).mp hh))
        (blk0 m c ⟨n + 1, h⟩) (blk1 m c ⟨n + 1, h⟩) (blk2 m c ⟨n + 1, h⟩) (blk3 m c ⟨n + 1, h⟩)
        (outsAt0 m c ((⟨n + 1, h⟩ : Fin cfg0.N).val - 1) (Nat.lt_of_le_of_lt (Nat.sub_le _ _) (⟨n + 1, h⟩ : Fin cfg0.N).isLt)))
    refine (congrFun e j).trans ?_
    refine (step_apply (blk0 m c ⟨n + 1, h⟩) (blk1 m c ⟨n + 1, h⟩) (blk2 m c ⟨n + 1, h⟩) (blk3 m c ⟨n + 1, h⟩) _ j).trans ?_
    rw [Finset.sum_range_succ _ (n + 1), totalAt_of_lt m c (n + 1) h]
    refine congrArg₂ (· + ·) ?_ rfl
    exact outsAt_eq c n (Nat.lt_of_succ_lt h) j

end Cert.KernelIdeal.Accum

end
-- ==== Proof.KernelValue.lean ====
/-
  The kernel program's run, with its result named. The program visits the 64 points of its grid in order; point `k`
  adds the total of its input blocks' per-patient terms to a one-entry accumulator, the first point starting from zero,
  so after point `n` the accumulator holds the sum of the totals of points `0 … n`. The accumulator is written to the
  [1,1] result array exactly once, after the last point, and its one block is the whole array; the program then reads
  that array as a scalar (a [1,1] array and a scalar have the same single entry). So the scalar result ends holding
  the sum of the 64 block totals, and none of the five arguments is written.
-/
import proofs.«155827_j70531952935356_1_alg».proof.Proof.Gen.KernelIdeal.Frame
import proofs.«155827_j70531952935356_1_alg».proof.Proof.Accum
import Idealize.ShloMosaic.Lib.Pipeline.Value
import Idealize.ShloMosaic.Lib.StableHlo.Run
import Idealize.ShloMosaic.Lib.ValueIdx

noncomputable section

namespace Cert.KernelIdeal.Value

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The grand total: the sum of the 64 points' block totals. -/
def total (c : Dev nD) : EReal := ∑ k ∈ Finset.range 64, Cert.KernelIdeal.Accum.totalAt m c k

/-- The grid has 64 points, so point 63 is one of them (the last). -/
theorem h63 : 63 < cfg0.N := by rw [show cfg0.N = 64 from N_0]; decide

/-- The last point of the grid. -/
abbrev tLast : Fin cfg0.N := ⟨63, h63⟩

/-- What the accumulator holds after the last point, as contents of the [1,1] result array. -/
abbrev result (c : Dev nD) : Buf (Elt Ideal) ((c : Thread nD τ).loc main_v4) := outsAt0 m c 63 h63

/-- The one write to the result array happens at the last point and writes the accumulator: the block at index (0, 0)
    of a [1,1] array, read at zero offsets, is the whole array. -/
theorem flushed_eq (c : Dev nD) (t : Fin cfg0.N) (hf : (cfg0.win 4).flush t = true) :
    (dats m 0 c).flushed 4 t = ((cfg0.win 4).blk t).view.read (Elt Ideal) (result m c) := by
  have hN : cfg0.N = 64 := N_0
  have h3 : t.val = 63 := by have := (flush0_4 t).mp hf; have := t.isLt; omega
  obtain rfl : t = tLast := Fin.ext h3
  show (cfg0.win 4).cut (grid0.coords tLast) ((dats m 0 c).after 4 tLast) = _
  rw [after0_4]
  have hz' : (fun a => win0_4.index tLast a * main_v4.ty.shape.size a) = fun _ => 0 :=
    funext fun a => by fin_cases a <;> decide +kernel
  exact (Memref.read_access_unit_zero (Elt Ideal) main_v4 hz' (fun a => by rw [congrFun hz' a]; simp) (result m c)).symm

/-- So the result array ends holding the accumulator after the last point: that one block covers both axes (each entry
    index is below the extent 1). -/
theorem final4 (c : Dev nD) : (dats m 0 c).arrAt 4 cfg0.N = result m c :=
  (dats m 0 c).arrAt_eq_of_cover 4 (result m c) (flushed_eq m c) fun i =>
    ⟨tLast, (flush0_4 tLast).mpr rfl, by
      show i ∈ ((View.whole main_v4).slice (win0_4.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_4.index tLast 0 * win0_4.size 0 ≤ (i 0 : Nat)
          ∧ (i 0 : Nat) < win0_4.index tLast 0 * win0_4.size 0 + win0_4.xsize (grid0.coords tLast) 0
        rw [show win0_4.index tLast 0 * win0_4.size 0 = 0 from by decide +kernel,
          show win0_4.xsize (grid0.coords tLast) 0 = 1 from by decide +kernel]
        omega
      | ⟨1, _⟩ =>
        show win0_4.index tLast 1 * win0_4.size 1 ≤ (i 1 : Nat)
          ∧ (i 1 : Nat) < win0_4.index tLast 1 * win0_4.size 1 + win0_4.xsize (grid0.coords tLast) 1
        rw [show win0_4.index tLast 1 * win0_4.size 1 = 0 from by decide +kernel,
          show win0_4.xsize (grid0.coords tLast) 1 = 1 from by decide +kernel]
        omega⟩

/-- The scalar read off the result array is the grand total: the scalar's one entry and the array's entry (0, 0) both sit
    at row-major position 0, and the accumulator after point 63 is the sum over the points `0 … 63`. -/
theorem v5_eq (c : Dev nD) :
    Pipeline.afterTail₀ cfgs (dats m) 0 (V0 m) [hostOps1] c main_v5 = fun _ => total m c := by
  unfold Pipeline.afterTail₀
  show StableHlo.after hostOps1 _ (Proc.devRef .tc main_v5) = _
  after_results
  funext i
  show shapeCast S_ (Pipeline.withArrays (cfgs 0).spec c (V0 m c) (fun w => (dats m 0 c).arrAt w (cfgs 0).N)
    (Proc.devRef .tc main_v4)) shapeCasts_S1x1_S_ i = total m c
  have hk : (S1x1.rowMajor (ValueIdx.ix2 (0 : Fin 1) (0 : Fin 1))).val = (S_.rowMajor i).val := by
    have h1 : (S_.rowMajor i).val < S_.numel := (S_.rowMajor i).isLt
    have h2 : S_.numel = 1 := by decide
    rw [Shape.rowMajor_val_two]
    show (0 : Fin 1).val * _ + (0 : Fin 1).val = _
    simp only [Fin.val_zero, Nat.zero_mul, Nat.add_zero]
    omega
  refine (shapeCast_apply _ shapeCasts_S1x1_S_ i (ValueIdx.ix2 (0 : Fin 1) (0 : Fin 1)) hk).trans ?_
  have e : Pipeline.withArrays (cfgs 0).spec c (V0 m c) (fun w => (dats m 0 c).arrAt w (cfgs 0).N)
      (Proc.devRef .tc main_v4) = result m c :=
    (Pipeline.withArrays_arr spec0 launch0.win.arr_inj c _ _ 4).trans (final4 m c)
  refine (congrFun e _).trans ?_
  exact Cert.KernelIdeal.Accum.outsAt_eq m c 63 h63 _

/-- Every run of the program ends with the scalar result at the grand total and the five arguments as they were given. -/
theorem run : θ_run (defs (F := Ideal)) (onTc (τ := τ) (main (F := Ideal))) ⟨m, fun _ => 0, ρ⟩ fun r => ∀ c : Dev nD,
      r.2.mem ((c.tc : Thread nD τ).loc main_v5) = (fun _ => total m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v5 (Pipeline.mem_restRefs_of main_v5 (by decide) (by decide))).trans (v5_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Value

end
-- ==== Proof.BlockRead.lean ====
/-
  WHAT AN INPUT WINDOW'S BLOCK HOLDS, entry by entry, in terms of the argument arrays.

  Each flat argument of 16777216 entries is reshaped, before the kernel region, to 131072 rows of 128 lanes; input window
  `w` stages that array, and its block at grid point `t` is rows `2048·t … 2048·t + 2047`. A reshape keeps the row-major
  position, so the block's entry at row `r`, lane `l` is the argument's entry at flat position
  `(t·2048 + r)·128 + l`.

  `flat_lt`: that position is below 16777216 (the grid has 64 points).
  `iblk0_apply` … `iblk3_apply`: the four input windows' blocks read at `(r, l)`.
-/
import proofs.«155827_j70531952935356_1_alg».proof.Proof.Gen.KernelIdeal.Frame
import Idealize.ShloMosaic.Lib.ValueIdx
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.TcCoe Idealize.SL.Sem Idealize.ShloMosaic.ValueIdx

variable {F : FTy → Type} [FloatOps F]
variable (m : (ℓ : Loc nD τ sig) → Buf (Elt F) ℓ)

/-- The flat position of row `r`, lane `l` of block `t` is below the argument's length. -/
theorem flat_lt (t : Fin cfg0.N) (r : Fin 2048) (l : Fin 128) : (t.val * 2048 + r.val) * 128 + l.val < 16777216 := by
  have ht : t.val < 64 := Nat.lt_of_lt_of_eq t.isLt N_0
  have := r.isLt; have := l.isLt
  omega

/-- The array window 0 stages is the reshape of the argument. -/
theorem V_main_v0 (c : Dev nD) :
    (V m c main_v0 : S131072x128.Idx → Elt F .f32)
      = shapeCast S131072x128 (m ((c : Thread nD τ).loc main_arg0)) shapeCasts_S16777216_S131072x128 := by
  show StableHlo.after hostOps0 (fun b => m (c, b)) (Proc.devRef .tc main_v0) = _
  after_results
  rfl

/-- Window 0's index map at a grid point: block row `t`, block column `0`. -/
theorem index0 : ∀ t : Fin cfg0.N, win0_0.index t 0 = t.val ∧ win0_0.index t 1 = 0 :=
  (by decide +kernel : ∀ t : Fin grid0.N, win0_0.index t 0 = t.val ∧ win0_0.index t 1 = 0)

/-- Window 0's block at point `t`, read at row `r`, lane `l`, is the argument at flat position `(t·2048 + r)·128 + l`. -/
theorem iblk0_apply (c : Dev nD) (t : Fin cfg0.N) (r : Fin 2048) (l : Fin 128) :
    (iblk m c 0 t : Vec F S2048x128 .f32) (ix2 r l)
      = m ((c : Thread nD τ).loc main_arg0) (ix1 ⟨(t.val * 2048 + r.val) * 128 + l.val, flat_lt t r l⟩) := by
  unfold iblk
  rw [View.read_apply]
  show V m c main_v0 (((cfg0.win 0).blk t).view.emb (ix2 r l)) = _
  rw [V_main_v0]
  -- a reshape keeps the row-major position: `(t·2048 + r)·128 + l` on both sides
  refine shapeCast_apply _ _ _ (ix1 ⟨(t.val * 2048 + r.val) * 128 + l.val, flat_lt t r l⟩) ?_
  rw [Shape.rowMajor_val_one, Shape.rowMajor_val_two]
  have h0 : ((((cfg0.win 0).blk t).view.emb (ix2 r l)) 0).val = t.val * 2048 + r.val := by
    show win0_0.index t 0 * 2048 + 1 * r.val = _
    rw [(index0 t).1]; omega
  have h1 : ((((cfg0.win 0).blk t).view.emb (ix2 r l)) 1).val = l.val := by
    show win0_0.index t 1 * 128 + 1 * l.val = _
    rw [(index0 t).2]; omega
  rw [h0, h1]
  rfl

/-- The array window 1 stages is the reshape of the argument. -/
theorem V_main_v1 (c : Dev nD) :
    (V m c main_v1 : S131072x128.Idx → Elt F .i32)
      = shapeCast S131072x128 (m ((c : Thread nD τ).loc main_arg2)) shapeCasts_S16777216_S131072x128 := by
  show StableHlo.after hostOps0 (fun b => m (c, b)) (Proc.devRef .tc main_v1) = _
  after_results
  rfl

/-- Window 1's index map at a grid point: block row `t`, block column `0`. -/
theorem index1 : ∀ t : Fin cfg0.N, win0_1.index t 0 = t.val ∧ win0_1.index t 1 = 0 :=
  (by decide +kernel : ∀ t : Fin grid0.N, win0_1.index t 0 = t.val ∧ win0_1.index t 1 = 0)

/-- Window 1's block at point `t`, read at row `r`, lane `l`, is the argument at flat position `(t·2048 + r)·128 + l`. -/
theorem iblk1_apply (c : Dev nD) (t : Fin cfg0.N) (r : Fin 2048) (l : Fin 128) :
    (iblk m c 1 t : Vec F S2048x128 .i32) (ix2 r l)
      = m ((c : Thread nD τ).loc main_arg2) (ix1 ⟨(t.val * 2048 + r.val) * 128 + l.val, flat_lt t r l⟩) := by
  unfold iblk
  rw [View.read_apply]
  show V m c main_v1 (((cfg0.win 1).blk t).view.emb (ix2 r l)) = _
  rw [V_main_v1]
  -- a reshape keeps the row-major position: `(t·2048 + r)·128 + l` on both sides
  refine shapeCast_apply _ _ _ (ix1 ⟨(t.val * 2048 + r.val) * 128 + l.val, flat_lt t r l⟩) ?_
  rw [Shape.rowMajor_val_one, Shape.rowMajor_val_two]
  have h0 : ((((cfg0.win 1).blk t).view.emb (ix2 r l)) 0).val = t.val * 2048 + r.val := by
    show win0_1.index t 0 * 2048 + 1 * r.val = _
    rw [(index1 t).1]; omega
  have h1 : ((((cfg0.win 1).blk t).view.emb (ix2 r l)) 1).val = l.val := by
    show win0_1.index t 1 * 128 + 1 * l.val = _
    rw [(index1 t).2]; omega
  rw [h0, h1]
  rfl

/-- The array window 2 stages is the reshape of the argument. -/
theorem V_main_v2 (c : Dev nD) :
    (V m c main_v2 : S131072x128.Idx → Elt F .f32)
      = shapeCast S131072x128 (m ((c : Thread nD τ).loc main_arg3)) shapeCasts_S16777216_S131072x128 := by
  show StableHlo.after hostOps0 (fun b => m (c, b)) (Proc.devRef .tc main_v2) = _
  after_results
  rfl

/-- Window 2's index map at a grid point: block row `t`, block column `0`. -/
theorem index2 : ∀ t : Fin cfg0.N, win0_2.index t 0 = t.val ∧ win0_2.index t 1 = 0 :=
  (by decide +kernel : ∀ t : Fin grid0.N, win0_2.index t 0 = t.val ∧ win0_2.index t 1 = 0)

/-- Window 2's block at point `t`, read at row `r`, lane `l`, is the argument at flat position `(t·2048 + r)·128 + l`. -/
theorem iblk2_apply (c : Dev nD) (t : Fin cfg0.N) (r : Fin 2048) (l : Fin 128) :
    (iblk m c 2 t : Vec F S2048x128 .f32) (ix2 r l)
      = m ((c : Thread nD τ).loc main_arg3) (ix1 ⟨(t.val * 2048 + r.val) * 128 + l.val, flat_lt t r l⟩) := by
  unfold iblk
  rw [View.read_apply]
  show V m c main_v2 (((cfg0.win 2).blk t).view.emb (ix2 r l)) = _
  rw [V_main_v2]
  -- a reshape keeps the row-major position: `(t·2048 + r)·128 + l` on both sides
  refine shapeCast_apply _ _ _ (ix1 ⟨(t.val * 2048 + r.val) * 128 + l.val, flat_lt t r l⟩) ?_
  rw [Shape.rowMajor_val_one, Shape.rowMajor_val_two]
  have h0 : ((((cfg0.win 2).blk t).view.emb (ix2 r l)) 0).val = t.val * 2048 + r.val := by
    show win0_2.index t 0 * 2048 + 1 * r.val = _
    rw [(index2 t).1]; omega
  have h1 : ((((cfg0.win 2).blk t).view.emb (ix2 r l)) 1).val = l.val := by
    show win0_2.index t 1 * 128 + 1 * l.val = _
    rw [(index2 t).2]; omega
  rw [h0, h1]
  rfl

/-- The array window 3 stages is the reshape of the argument. -/
theorem V_main_v3 (c : Dev nD) :
    (V m c main_v3 : S131072x128.Idx → Elt F .f32)
      = shapeCast S131072x128 (m ((c : Thread nD τ).loc main_arg4)) shapeCasts_S16777216_S131072x128 := by
  show StableHlo.after hostOps0 (fun b => m (c, b)) (Proc.devRef .tc main_v3) = _
  after_results
  rfl

/-- Window 3's index map at a grid point: block row `t`, block column `0`. -/
theorem index3 : ∀ t : Fin cfg0.N, win0_3.index t 0 = t.val ∧ win0_3.index t 1 = 0 :=
  (by decide +kernel : ∀ t : Fin grid0.N, win0_3.index t 0 = t.val ∧ win0_3.index t 1 = 0)

/-- Window 3's block at point `t`, read at row `r`, lane `l`, is the argument at flat position `(t·2048 + r)·128 + l`. -/
theorem iblk3_apply (c : Dev nD) (t : Fin cfg0.N) (r : Fin 2048) (l : Fin 128) :
    (iblk m c 3 t : Vec F S2048x128 .f32) (ix2 r l)
      = m ((c : Thread nD τ).loc main_arg4) (ix1 ⟨(t.val * 2048 + r.val) * 128 + l.val, flat_lt t r l⟩) := by
  unfold iblk
  rw [View.read_apply]
  show V m c main_v3 (((cfg0.win 3).blk t).view.emb (ix2 r l)) = _
  rw [V_main_v3]
  -- a reshape keeps the row-major position: `(t·2048 + r)·128 + l` on both sides
  refine shapeCast_apply _ _ _ (ix1 ⟨(t.val * 2048 + r.val) * 128 + l.val, flat_lt t r l⟩) ?_
  rw [Shape.rowMajor_val_one, Shape.rowMajor_val_two]
  have h0 : ((((cfg0.win 3).blk t).view.emb (ix2 r l)) 0).val = t.val * 2048 + r.val := by
    show win0_3.index t 0 * 2048 + 1 * r.val = _
    rw [(index3 t).1]; omega
  have h1 : ((((cfg0.win 3).blk t).view.emb (ix2 r l)) 1).val = l.val := by
    show win0_3.index t 1 * 128 + 1 * l.val = _
    rw [(index3 t).2]; omega
  rw [h0, h1]
  rfl

end Cert.KernelIdeal.Blocks

end
-- ==== Proof.LibBlockSum.lean ====
/-
  A SUM OVER A FLAT INDEX SET, READ AS BLOCKS OF ROWS OF LANES.

  A rank-1 index set of `N = T · R · L` entries is laid out as `T` blocks of `R` rows of `L` lanes: the entry in block
  `t`, row `r`, lane `l` sits at the flat position `(t · R + r) · L + l`.

  `blk_lt`: that position is below `N`.
  `sum_idx1_blocks`: in any additive commutative monoid, the sum of `f` over the flat index set is the triple sum over
  blocks, rows and lanes of `f` at that position. (The map `(t, r, l) ↦ (t · R + r) · L + l` is the mixed-radix bijection
  `Fin T × Fin R × Fin L ≃ Fin (T · R · L)`; a sum is unchanged by re-indexing through a bijection.)
-/
import Idealize.ShloMosaic.Lib.ValueIdx
import Idealize.ShloMosaic.Lib.ValueIdxRank1
import Mathlib.Algebra.BigOperators.Fin
import Mathlib.Algebra.BigOperators.Group.Finset.Basic
import Mathlib.Algebra.BigOperators.Group.Finset.Sigma
import Mathlib.Logic.Equiv.Fin.Basic
import Mathlib.Tactic.Ring

open scoped BigOperators

namespace Cert.LibBlockSum

open Idealize.ShloMosaic Idealize.ShloMosaic.ValueIdx

/-- The flat position of block `t`, row `r`, lane `l` is below `N = T · R · L`. -/
theorem blk_lt {T R L N : ℕ} (h : T * R * L = N) (t : Fin T) (r : Fin R) (l : Fin L) :
    (t.val * R + r.val) * L + l.val < N := by
  subst h
  have h1 : t.val * R + r.val + 1 ≤ T * R := by
    calc t.val * R + r.val + 1 ≤ t.val * R + R := by have := r.isLt; omega
      _ = (t.val + 1) * R := by ring
      _ ≤ T * R := Nat.mul_le_mul_right _ t.isLt
  calc (t.val * R + r.val) * L + l.val < (t.val * R + r.val) * L + L := by have := l.isLt; omega
    _ = (t.val * R + r.val + 1) * L := by ring
    _ ≤ T * R * L := Nat.mul_le_mul_right _ h1

/-- A sum over a flat index set of `N = T · R · L` entries is the triple sum over blocks, rows and lanes. -/
theorem sum_idx1_blocks {M : Type*} [AddCommMonoid M] {T R L N : ℕ} (h : T * R * L = N)
    (f : (⟨1, ![N]⟩ : Shape).Idx → M) :
    ∑ j, f j = ∑ t : Fin T, ∑ r : Fin R, ∑ l : Fin L,
      f (ix1 ⟨(t.val * R + r.val) * L + l.val, blk_lt h t r l⟩) := by
  subst h
  -- the flat index set is its coordinate range
  rw [← Equiv.sum_comp (idxEquiv1 (n := T * R * L)).symm f]
  -- the range `Fin (T·R·L)` is `Fin (T·R) × Fin L`, and `Fin (T·R)` is `Fin T × Fin R`
  rw [← Equiv.sum_comp (finProdFinEquiv (m := T * R) (n := L)), Fintype.sum_prod_type]
  rw [← Equiv.sum_comp (finProdFinEquiv (m := T) (n := R)), Fintype.sum_prod_type]
  refine Finset.sum_congr rfl fun t _ => Finset.sum_congr rfl fun r _ => Finset.sum_congr rfl fun l _ => ?_
  -- the two positions are the same number: `l + L · (r + R · t) = (t · R + r) · L + l`
  have e : finProdFinEquiv (finProdFinEquiv (t, r), l)
      = (⟨(t.val * R + r.val) * L + l.val, blk_lt rfl t r l⟩ : Fin (T * R * L)) := by
    apply Fin.ext
    simp only [finProdFinEquiv_apply_val]
    ring
  rw [e]
  rfl

end Cert.LibBlockSum
-- ==== Proof.Total.lean ====
/-
  The grand total in terms of the argument arrays. Point `t`'s input blocks are rows `2048·t … 2048·t + 2047` of the four
  arguments viewed as 131072 rows of 128 lanes, so the entry at row `r`, lane `l` of the block is the argument's entry at the
  flat position `(2048·t + r)·128 + l`. The 64 points' block totals therefore add up to the sum, over all 16777216 patients, of the
  kernel's per-patient term of that patient's prediction, flag, sepsis time and current time: the blocks partition the patients.
-/
import proofs.«155827_j70531952935356_1_alg».proof.Proof.Accum
import proofs.«155827_j70531952935356_1_alg».proof.Proof.BlockRead
import proofs.«155827_j70531952935356_1_alg».proof.Proof.LibBlockSum

noncomputable section

open Idealize.ShloMosaic Idealize.ShloMosaic.TcCoe Idealize.SL.Sem Idealize.ShloMosaic.ValueIdx

namespace Cert.KernelIdeal.Total

open Cert.KernelIdeal Cert.KernelIdeal.Gen Cert.KernelIdeal.Accum

variable (m : (ℓ : Loc nD τ sig) → Buf (Elt Ideal) ℓ)

/-- The kernel's per-patient term of patient `j`'s four inputs. -/
def patient (c : Dev nD) (j : S16777216.Idx) : EReal :=
  Cert.Utility.ker (F := Ideal) (m ((c : Thread nD τ).loc main_arg0) j) (m ((c : Thread nD τ).loc main_arg2) j)
    (m ((c : Thread nD τ).loc main_arg3) j) (m ((c : Thread nD τ).loc main_arg4) j)

/-- Point `t`'s block total is the sum of the terms of the patients at the flat positions of its rows and lanes. -/
theorem blockTotal_eq (c : Dev nD) (t : Fin cfg0.N) :
    blockTotal m c t = ∑ r : Fin 2048, ∑ l : Fin 128,
      patient m c (ix1 ⟨(t.val * 2048 + r.val) * 128 + l.val, Cert.KernelIdeal.Blocks.flat_lt t r l⟩) := by
  unfold blockTotal patient
  refine Finset.sum_congr rfl fun r _ => Finset.sum_congr rfl fun l _ => ?_
  rw [show blk0 m c t (ix2 r l) = _ from Cert.KernelIdeal.Blocks.iblk0_apply m c t r l,
    show blk1 m c t (ix2 r l) = _ from Cert.KernelIdeal.Blocks.iblk1_apply m c t r l,
    show blk2 m c t (ix2 r l) = _ from Cert.KernelIdeal.Blocks.iblk2_apply m c t r l,
    show blk3 m c t (ix2 r l) = _ from Cert.KernelIdeal.Blocks.iblk3_apply m c t r l]

/-- The 64 block totals add up to the sum of every patient's term. -/
theorem total_eq (c : Dev nD) :
    ∑ k ∈ Finset.range 64, totalAt m c k = ∑ j : S16777216.Idx, patient m c j := by
  have hN : cfg0.N = 64 := N_0
  rw [Finset.sum_range (fun k => totalAt m c k),
    Cert.LibBlockSum.sum_idx1_blocks (T := 64) (R := 2048) (L := 128) (N := 16777216) rfl (patient m c)]
  refine Finset.sum_congr rfl fun t _ => ?_
  have ht : t.val < cfg0.N := lt_of_lt_of_eq t.isLt hN.symm
  rw [totalAt_of_lt m c t.val ht, blockTotal_eq m c ⟨t.val, ht⟩]

end Cert.KernelIdeal.Total

end
-- ==== Proof.RefValue.lean ====
/-
  The reference's result, read index by index. The reference computes one array, entry by entry: at entry `j` it is
  the per-patient term `Cert.Utility.ref` of the four values the inputs hold at `j` (the prediction, the flag, the
  sepsis time, the current time), the form `-(x · (uTP · f + uFP · (1 - f)) + (1 - x) · (uFN · f + uTN · (1 - f)))`
  with `d = c - (s - (-6))`; every constant of it is a scalar spread over the array, so at an entry it is that scalar.
  The result is then the sum of that array over all entries, started from the constant zero: on the extended reals,
  `0 + ∑ j, ref (x j) (fl j) (s j) (c j)`, that is the sum itself.
-/
import proofs.«155827_j70531952935356_1_alg».proof.Proof.Gen.ReferenceIdeal.Read
import proofs.«155827_j70531952935356_1_alg».proof.Proof.Utility
import Idealize.ShloMosaic.PureOps.Ideal
import Idealize.ShloMosaic.PureOps.Ideal.Laws
import Mathlib.Algebra.BigOperators.Group.Finset.Basic

noncomputable section

namespace Cert.ReferenceIdeal.RefValue

open Cert.ReferenceIdeal Cert.ReferenceIdeal.Read Idealize.ShloMosaic

/-- The negated array at an entry `j` is the reference's per-patient term of the inputs' values at `j`, over any
    float values: each operation of the reference acts entry by entry (a comparison, a choice between two values, a
    sum, a product, a change of format that is the identity), and each spread constant is its scalar at every entry;
    unfolding both sides gives the same term. -/
theorem negated_apply {F : FTy → Type} [FloatOps F] (x0 : (⟨S16777216, .f32⟩ : BufTy).Contents (Elt F))
    (x2 : (⟨S16777216, .i32⟩ : BufTy).Contents (Elt F)) (x3 x4 : (⟨S16777216, .f32⟩ : BufTy).Contents (Elt F))
    (j : S16777216.Idx) :
    val_main_v49 (F := F) x0 x2 x3 x4 j = Cert.Utility.ref (F := F) (x0 j) (x2 j) (x3 j) (x4 j) := by
  simp only [val_main_v49_apply, val_main_v48_apply, val_main_v47_apply, val_main_v46_apply, val_main_v45_apply,
    val_main_v44_apply, val_main_v43_apply, val_main_v42_apply, val_main_v41_apply, val_main_v40_apply,
    val_main_v39_apply, val_main_v38_apply, val_main_v37_apply, val_main_v36_apply, val_main_v35_apply,
    val_main_v34_apply, val_main_v33_apply, val_main_v32_apply, val_main_v31_apply, val_main_v30_apply,
    val_main_v29_apply, val_main_v28_apply, val_main_v27_apply, val_main_v26_apply, val_main_v25_apply,
    val_main_v24_apply, val_main_v23_apply, val_main_v22_apply, val_main_v21_apply, val_main_v20_apply,
    val_main_v19_apply, val_main_v18_apply, val_main_v17_apply, val_main_v16_apply, val_main_v15_apply,
    val_main_v14_apply, val_main_v13_apply, val_main_v12_apply, val_main_v11_apply, val_main_v10_apply,
    val_main_v9_apply, val_main_v8_apply, val_main_v7_apply, val_main_v6_apply, val_main_v5_apply,
    val_main_v4_apply, val_main_v3_apply, val_main_v2_apply, val_main_v1_apply, val_main_v0_apply,
    val_main_call1_v0_apply, val_main_call1_v1_apply, val_main_call2_v0_apply, val_main_call2_v1_apply,
    val_main_call3_v0_apply, val_main_call3_v1_apply, val_main_call4_v0_apply, val_main_call4_v1_apply,
    val_main_call5_v0_apply, val_main_call5_v1_apply, val_main_c_apply, val_main_cst_apply,
    val_main_cst_0_apply, val_main_cst_1_apply, val_main_cst_2_apply, val_main_cst_3_apply,
    val_main_cst_4_apply, val_main_cst_5_apply, val_main_cst_6_apply, val_main_cst_7_apply,
    val_main_cst_8_apply, val_main_cst_9_apply, val_main_cst_10_apply, val_main_cst_11_apply,
    val_main_cst_12_apply, val_main_cst_13_apply, val_main_cst_14_apply, val_main_cst_15_apply,
    val_main_cst_16_apply, val_main_cst_17_apply, val_main_cst_18_apply]
  rfl

/-- The reference's result is the sum over all entries of the per-patient term: the sum starts from the constant
    `0x00000000`, which is the real `0`, and `0 + a = a` on the extended reals. -/
theorem result_apply (x0 : (⟨S16777216, .f32⟩ : BufTy).Contents (Elt Ideal))
    (x2 : (⟨S16777216, .i32⟩ : BufTy).Contents (Elt Ideal)) (x3 x4 : (⟨S16777216, .f32⟩ : BufTy).Contents (Elt Ideal))
    (i : S_.Idx) :
    val_main_v50 (F := Ideal) x0 x2 x3 x4 i
      = ∑ j : S16777216.Idx, Cert.Utility.ref (F := Ideal) (x0 j) (x2 j) (x3 j) (x4 j) := by
  rw [val_main_v50_apply, val_main_cst_19_apply, Ideal.ofBits_def, Ideal.ofBits_zero_f32, zero_add]
  exact Finset.sum_congr rfl fun j _ => negated_apply x0 x2 x3 x4 j

end Cert.ReferenceIdeal.RefValue

end
-- ==== Proof.UtilityLaw.lean ====
/-
  THE REFERENCE'S PER-PATIENT TERM IS THE KERNEL'S, at the extended reals, when the two times are real numbers.

  Three facts make it.
  (i)  `c - (s - k) = (c - s) + k` for real `s`, `c` and EVERY extended real `k` (`regroup`): for real `k` it is the
       identity of the reals; for `k = ⊥` both sides are `⊥` (`s - ⊥ = ⊤`, `c - ⊤ = ⊥`; a real plus `⊥` is `⊥`); for
       `k = ⊤` both sides are `⊤` (`s - ⊤ = ⊥`, `c - ⊥ = ⊤`; a real plus `⊤` is `⊤`). So the two groupings of the hours
       past the optimal treatment time agree (`dRef_eq_dKer`); the offset is never evaluated.
  (ii) The true-negative utility is `0` at every `d` (`uTN_eq_zero`): it selects between zero and zero. So its product
       with `1 - f` is `0` (`0 · y = 0` at every extended real `y`) and adding it changes nothing.
  (iii) `0 - y = -y` at every extended real `y`.
-/
import proofs.«155827_j70531952935356_1_alg».proof.Proof.Utility
import Mathlib.Data.EReal.Basic
import Mathlib.Data.EReal.Operations
import Mathlib.Tactic.Ring

noncomputable section

namespace Cert.Utility

open Idealize.ShloMosaic Idealize.ShloMosaic.Ideal

/-- `c - (s - k) = (c - s) + k` for real `s`, `c` and every extended real `k`. -/
theorem regroup (s c : ℝ) (k : EReal) :
    (c : EReal) - ((s : EReal) - k) = ((c : EReal) - (s : EReal)) + k := by
  induction k using EReal.rec with
  | bot =>
    -- `s - ⊥ = ⊤`, `c - ⊤ = ⊥`; and `(c - s) + ⊥ = ⊥`
    rw [EReal.coe_sub_bot, EReal.sub_top, EReal.add_bot]
  | coe k =>
    rw [← EReal.coe_sub, ← EReal.coe_sub, ← EReal.coe_sub, ← EReal.coe_add]
    congr 1
    ring
  | top =>
    -- `s - ⊤ = ⊥`, `c - ⊥ = ⊤`; and `(c - s) + ⊤ = ⊤` as `c - s` is real
    rw [EReal.sub_top, EReal.coe_sub_bot, ← EReal.coe_sub, EReal.coe_add_top]

/-- The two groupings of the hours past the optimal treatment time agree at real times. -/
theorem dRef_eq_dKer (s c : ℝ) :
    dRef (F := Ideal) (s : EReal) (c : EReal) = dKer (F := Ideal) (s : EReal) (c : EReal) := by
  unfold dRef dKer
  simp only [subf_def, addf_def]
  exact regroup s c _

/-- The true-negative utility is zero at every `d`. -/
theorem uTN_eq_zero (d : Ideal .f32) : uTN (F := Ideal) d = 0 := by
  unfold uTN
  have h : ∀ (b : BitVec 1) (z : Ideal .f32), Scalar.select b z z = z := by
    intro b z; unfold Scalar.select; split <;> rfl
  rw [h, ofBits_def, ofBits_zero_f32]

/-- The reference's per-patient term is the kernel's when the two times are real numbers. -/
theorem ref_eq_ker (x : Ideal .f32) (fl : BitVec 32) (s c : ℝ) :
    ref (F := Ideal) x fl (s : EReal) (c : EReal) = ker (F := Ideal) x fl (s : EReal) (c : EReal) := by
  unfold ref ker
  rw [dRef_eq_dKer]
  generalize dKer (F := Ideal) (s : EReal) (c : EReal) = d
  -- the true-negative term is `0 · (1 - f) = 0`; and `0 - y = -y`
  rw [uTN_eq_zero]
  simp only [hostNegf_def, negf_def, subf_def, addf_def, mulf_def, ofBits_def, ofBits_zero_f32, zero_mul, add_zero,
    zero_sub]

end Cert.Utility

end
-- ==== Proof.Finite.lean ====
/-
  The precondition `finite_inputs` says, of each of the four floating inputs, that every entry `x` has
  `|x| < +inf`; the four statements are conjoined. Read at the extended reals, `|x|` is `max x (-x)` and the
  constant `0x7F800000` is `⊤`. An extended real is `⊥`, a real, or `⊤`; at `⊥` and at `⊤` the value
  `max x (-x)` is `⊤`, which is not below `⊤`. So `|x| < +inf` leaves only the middle case: `x` is a real.
  Here this is drawn for the third and fourth floating inputs (the two times).
-/
import proofs.«155827_j70531952935356_1_alg».proof.Pre_finite_inputs
import Idealize.ShloMosaic.Lib.ReduceAll
import Idealize.ShloMosaic.Lib.Affine
import Idealize.ShloMosaic.Lib.ValueIdx
import Idealize.ShloMosaic.PureOps.Ideal
import Idealize.ShloMosaic.PureOps.Ideal.Laws
import Mathlib.Data.EReal.Basic

namespace Cert.Finite

open Idealize.ShloMosaic

/-- The shape of a scalar has exactly one index: two indices are functions out of the empty `Fin 0`. -/
instance subsingleton_scalar_idx : Subsingleton Cert.Pre_finite_inputs.S_.Idx := ⟨fun a b => funext fun d => d.elim0⟩

/-- An extended real whose absolute value `max x (-x)` is below `⊤` is a real: at `⊥` and at `⊤` that
    maximum is `⊤`. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The element fact of the precondition, `|x| < +inf` as a comparison that came out 1, gives a real. -/
theorem real_of_cmp (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = (⊤ : EReal) := by simp [Ideal.ofBits, Ideal.ieee]
  rw [Ideal.hostAbsf_def, Ideal.cmpf_def, Ideal.absf_def, Ideal.ofBits_def, htop] at h
  refine real_of_abs_lt_top x ?_
  by_contra hn
  simp [Ideal.cmp, hn] at h

/-- Under the precondition every entry of the two time inputs is a real. -/
theorem times_real [Cert.Pre_finite_inputs.Facts]
    (x0 x1 : FVec Ideal Cert.Pre_finite_inputs.S16777216 .f32) (x2 : IVec Cert.Pre_finite_inputs.S16777216 32)
    (x3 x4 : FVec Ideal Cert.Pre_finite_inputs.S16777216 .f32)
    (h : Cert.Pre_finite_inputs.fn (F := Ideal) x0 x1 x2 x3 x4 = fun _ => 1#1)
    (j : Cert.Pre_finite_inputs.S16777216.Idx) :
    (∃ r : ℝ, x3 j = (r : EReal)) ∧ (∃ r : ℝ, x4 j = (r : EReal)) := by
  have h0 := congrFun h ValueIdx.ix0
  dsimp only [Cert.Pre_finite_inputs.fn, Cert.Pre_finite_inputs.fn_part1, andi] at h0
  -- the conjunction of the four statements, split: the last conjunct speaks of the fourth floating input, the one before it of the third
  obtain ⟨h012, h4⟩ := IntOp.andi_eq_one.1 h0
  obtain ⟨h01, h3⟩ := IntOp.andi_eq_one.1 h012
  -- a conjunction over all entries that is 1 is 1 at the entry `j`
  have e3 := Host.reduce_andi_all _ _ _ _ _ h3 j
  have e4 := Host.reduce_andi_all _ _ _ _ _ h4 j
  exact ⟨real_of_cmp (x3 j) e3, real_of_cmp (x4 j) e4⟩

end Cert.Finite
-- ==== Proof.lean ====
/-
  The weighted utility loss of 16777216 patients: the kernel against the reference, over the extended reals.

  Both programs form, for each patient, a piecewise-linear utility term of the patient's prediction, sepsis flag, sepsis time and
  current time (Proof/Utility.lean), negate it, and add up the terms of all patients. The reference adds them in one host sum
  over the flat arrays. The kernel views each array as 131072 rows of 128 lanes and walks 64 grid points of 2048 rows each; at a
  point it sums the block's terms over the lanes, then over the rows, and adds the block's total to a one-entry accumulator that
  the first point starts from zero and the last point writes back; a final reshape makes the scalar.

  Why the results are equal at the extended reals:
  * per patient the two terms are equal when the two times are real numbers (Proof/UtilityLaw.lean): the programs group the
    hours past the optimal treatment time differently, `(c - s) + (-6)` against `c - (s - (-6))`, which agree off `∞ - ∞`; the
    reference's extra true-negative summand is `0 · (1 - f) = 0`; and `0 - y = -y`. The precondition makes every time a real
    (Proof/Finite.lean);
  * the kernel's accumulator after the last point is the sum of the 64 block totals (Proof/Pieces.lean, Proof/StepValue.lean,
    Proof/Accum.lean, Proof/KernelValue.lean), and the blocks partition the patients, entry (t, r, l) being patient
    `(2048·t + r)·128 + l` (Proof/BlockRead.lean, Proof/LibBlockSum.lean, Proof/Total.lean); finite sums on the extended reals
    may be regrouped freely, so the total is the reference's one sum (Proof/RefValue.lean).

  The three frames are the generated ones (the reference's is its run with the result dropped); the idealization rewrote nothing.
-/
import proofs.«155827_j70531952935356_1_alg».proof.Defs
import proofs.«155827_j70531952935356_1_alg».proof.Proof.Gen.Kernel
import proofs.«155827_j70531952935356_1_alg».proof.Proof.Gen.Kernel.Skeleton
import proofs.«155827_j70531952935356_1_alg».proof.Proof.Gen.Kernel.Launch
import proofs.«155827_j70531952935356_1_alg».proof.Proof.Gen.Kernel.Points
import proofs.«155827_j70531952935356_1_alg».proof.Proof.Gen.Kernel.Frame
import proofs.«155827_j70531952935356_1_alg».proof.Proof.Gen.KernelIdeal
import proofs.«155827_j70531952935356_1_alg».proof.Proof.Gen.KernelIdeal.Skeleton
import proofs.«155827_j70531952935356_1_alg».proof.Proof.Gen.KernelIdeal.Launch
import proofs.«155827_j70531952935356_1_alg».proof.Proof.Gen.KernelIdeal.Points
import proofs.«155827_j70531952935356_1_alg».proof.Proof.Gen.KernelIdeal.Frame
import proofs.«155827_j70531952935356_1_alg».proof.Proof.Gen.ReferenceIdeal
import proofs.«155827_j70531952935356_1_alg».proof.Proof.Gen.ReferenceIdeal.Run
import proofs.«155827_j70531952935356_1_alg».proof.Proof.Gen.ReferenceIdeal.Read
import proofs.«155827_j70531952935356_1_alg».proof.Proof.Gen.Pre_finite_inputs
import proofs.«155827_j70531952935356_1_alg».proof.Proof.KernelValue
import proofs.«155827_j70531952935356_1_alg».proof.Proof.Total
import proofs.«155827_j70531952935356_1_alg».proof.Proof.RefValue
import proofs.«155827_j70531952935356_1_alg».proof.Proof.UtilityLaw
import proofs.«155827_j70531952935356_1_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- So does its reading at the extended reals. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the sum over all patients of the per-patient term: the kernel's block totals regrouped, the reference's
    one sum, the terms equal patient by patient because the precondition makes the times real. -/
theorem algebraic : Cert.algebraic_KernelIdeal_ReferenceIdeal := by
  intro m ρ m' ρ' hpre hagree
  refine ⟨fun c _ => Cert.KernelIdeal.Value.total m c, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v50_eq, (hagree c).1, (hagree c).2.2.1, (hagree c).2.2.2.1, (hagree c).2.2.2.2]
  funext i
  rw [Cert.ReferenceIdeal.RefValue.result_apply]
  show _ = Cert.KernelIdeal.Value.total m c
  unfold Cert.KernelIdeal.Value.total
  rw [Cert.KernelIdeal.Total.total_eq]
  refine Finset.sum_congr rfl fun j _ => ?_
  obtain ⟨⟨s, hs⟩, ⟨t, ht⟩⟩ := Cert.Finite.times_real _ _ _ _ _ (hpre c) j
  unfold Cert.KernelIdeal.Total.patient
  rw [hs, ht]
  exact Cert.Utility.ref_eq_ker _ _ s t

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
